-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S512x512 : Shape := ⟨2, ![512, 512]⟩
abbrev S512 : Shape := ⟨1, ![512]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S1024x256 .f32) (main_arg1 : FVec F S512x512 .f32) (main_arg2 : FVec F S512 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S1024x256 : Shape := ⟨2, ![1024, 256]⟩
abbrev S512x512 : Shape := ⟨2, ![512, 512]⟩
abbrev S512 : Shape := ⟨1, ![512]⟩
abbrev S512x1 : Shape := ⟨2, ![512, 1]⟩
abbrev S1x1024 : Shape := ⟨2, ![1, 1024]⟩
abbrev S128x256 : Shape := ⟨2, ![128, 256]⟩
abbrev S64x512 : Shape := ⟨2, ![64, 512]⟩
abbrev S64x1 : Shape := ⟨2, ![64, 1]⟩
abbrev S1x128 : Shape := ⟨2, ![1, 128]⟩
abbrev S64x256 : Shape := ⟨2, ![64, 256]⟩
abbrev S64x1x256 : Shape := ⟨3, ![64, 1, 256]⟩
abbrev S1x128x256 : Shape := ⟨3, ![1, 128, 256]⟩
abbrev S64x128x256 : Shape := ⟨3, ![64, 128, 256]⟩
abbrev S64x128 : Shape := ⟨2, ![64, 128]⟩
abbrev S128 : Shape := ⟨1, ![128]⟩
abbrev S1024 : Shape := ⟨1, ![1024]⟩

abbrev nBuf : Space → Nat
  | .hbm => 6
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S512x512, .f32⟩
  | .hbm, ⟨2, _⟩ => ⟨S512, .f32⟩
  | .hbm, ⟨3, _⟩ => ⟨S512x1, .f32⟩
  | .hbm, ⟨4, _⟩ => ⟨S1x1024, .f32⟩
  | .hbm, ⟨5, _⟩ => ⟨S1024, .f32⟩
  | .local _ .vmem, ⟨0, _⟩ => ⟨S128x256, .f32⟩
  | .local _ .vmem, ⟨1, _⟩ => ⟨S128x256, .f32⟩
  | .local _ .vmem, ⟨2, _⟩ => ⟨S64x512, .f32⟩
  | .local _ .vmem, ⟨3, _⟩ => ⟨S64x512, .f32⟩
  | .local _ .vmem, ⟨4, _⟩ => ⟨S64x1, .f32⟩
  | .local _ .vmem, ⟨5, _⟩ => ⟨S64x1, .f32⟩
  | .local _ .vmem, ⟨6, _⟩ => ⟨S1x128, .f32⟩
  | .local _ .vmem, ⟨7, _⟩ => ⟨S1x128, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S512_S512x1 : S512.ShapeCasts S512x1
  inb_S1x128_S1x128_0_0 : ∀ a, (![0, 0] : Fin 2 → Nat) a + S1x128.size a ≤ S1x128.size a
  h_S1x128 : 0 < S1x128.numel
  inb_S128x256_S128x256_0_0 : ∀ a, (![0, 0] : Fin 2 → Nat) a + S128x256.size a ≤ S128x256.size a
  h_S128x256 : 0 < S128x256.numel
  inb_S64x512_S64x512_0_0 : ∀ a, (![0, 0] : Fin 2 → Nat) a + S64x512.size a ≤ S64x512.size a
  h_S64x512 : 0 < S64x512.numel
  slices_S64x512_o0_0_S64x256 : S64x512.Slices ![0, 0] S64x256
  slices_S64x512_o0_256_S64x256 : S64x512.Slices ![0, 256] S64x256
  shapeCasts_S64x256_S64x1x256 : S64x256.ShapeCasts S64x1x256
  shapeCasts_S128x256_S1x128x256 : S128x256.ShapeCasts S1x128x256
  broadcasts_S64x1x256_S64x128x256 : S64x1x256.Broadcasts S64x128x256
  broadcasts_S1x128x256_S64x128x256 : S1x128x256.Broadcasts S64x128x256
  reduces_S64x128x256_S64x128 : S64x128x256.Reduces [2] S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  reduces_S64x128_S128 : S64x128.Reduces [0] S128
  shapeCasts_S128_S1x128 : S128.ShapeCasts S1x128
  shapeCasts_S1x128_S1x128 : S1x128.ShapeCasts S1x128
  shapeCasts_S1x1024_S1024 : S1x1024.ShapeCasts S1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S1024x256.size a
  hwx0_0 : ∀ i : grid0.Coords, EltTy.bits .f32 = 32 ∨ (Rect.block (s := S1024x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S512x512.size a
  hwx0_1 : ∀ i : grid0.Coords, EltTy.bits .f32 = 32 ∨ (Rect.block (s := S512x512) S64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S512x1.size a
  hwx0_2 : ∀ i : grid0.Coords, EltTy.bits .f32 = 32 ∨ (Rect.block (s := S512x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x1024.size a
  hwx0_3 : ∀ i : grid0.Coords, EltTy.bits .f32 = 32 ∨ (Rect.block (s := S1x1024) S1x128.size (cc0_transform_3 i) (hinb0_3 i)).WholeWords (EltTy.packing .f32)

variable [Facts₀]

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x256 : Shape := ⟨2, ![1024, 256]⟩
abbrev S512x512 : Shape := ⟨2, ![512, 512]⟩
abbrev S512 : Shape := ⟨1, ![512]⟩
abbrev S_ : Shape := ⟨0, ![]⟩
abbrev S1024x512 : Shape := ⟨2, ![1024, 512]⟩
abbrev S1x512x512 : Shape := ⟨3, ![1, 512, 512]⟩
abbrev S1024x1x512 : Shape := ⟨3, ![1024, 1, 512]⟩
abbrev S1024x512x512 : Shape := ⟨3, ![1024, 512, 512]⟩
abbrev S1x512 : Shape := ⟨2, ![1, 512]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512x512, .f32⟩
  | .hbm, ⟨5, _⟩ => ⟨S_, .f32⟩
  | .hbm, ⟨6, _⟩ => ⟨S512x512, .f32⟩
  | .hbm, ⟨7, _⟩ => ⟨S512x512, .f32⟩
  | .hbm, ⟨8, _⟩ => ⟨S_, .f32⟩
  | .hbm, ⟨9, _⟩ => ⟨S512x512, .f32⟩
  | .hbm, ⟨10, _⟩ => ⟨S512x512, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x512, .f32⟩
  | .hbm, ⟨15, _⟩ => ⟨S1x512x512, .f32⟩
  | .hbm, ⟨16, _⟩ => ⟨S1024x1x512, .f32⟩
  | .hbm, ⟨17, _⟩ => ⟨S1024x512x512, .f32⟩
  | .hbm, ⟨18, _⟩ => ⟨S1024x512x512, .f32⟩
  | .hbm, ⟨19, _⟩ => ⟨S1024x512x512, .f32⟩
  | .hbm, ⟨20, _⟩ => ⟨S_, .f32⟩
  | .hbm, ⟨21, _⟩ => ⟨S512x512, .f32⟩
  | .hbm, ⟨22, _⟩ => ⟨S512x512, .f32⟩
  | .hbm, ⟨23, _⟩ => ⟨S1x512x512, .f32⟩
  | .hbm, ⟨24, _⟩ => ⟨S1024x512x512, .f32⟩
  | .hbm, ⟨25, _⟩ => ⟨S1024x512x512, .f32⟩
  | .hbm, ⟨26, _⟩ => ⟨S_, .f32⟩
  | .hbm, ⟨27, _⟩ => ⟨S1024x512, .f32⟩
  | .hbm, ⟨28, _⟩ => ⟨S1x512, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S_S1024x256 : S_.BroadcastsInDim S1024x256 (![] : Fin 0 → Fin S1024x256.rank)
  concatenates_S1024x256_S1024x256_S1024x512_d1 : Shape.Concatenates [S1024x256, S1024x256] S1024x512 1
  bcast_S512x512_S1x512x512_1_2 : S512x512.BroadcastsInDim S1x512x512 (![1, 2] : Fin 2 → Fin S1x512x512.rank)
  bcast_S1024x512_S1024x1x512_0_2 : S1024x512.BroadcastsInDim S1024x1x512 (![0, 2] : Fin 2 → Fin S1024x1x512.rank)
  bcast_S1x512x512_S1024x512x512_0_1_2 : S1x512x512.BroadcastsInDim S1024x512x512 (![0, 1, 2] : Fin 3 → Fin S1024x512x512.rank)
  bcast_S1024x1x512_S1024x512x512_0_1_2 : S1024x1x512.BroadcastsInDim S1024x512x512 (![0, 1, 2] : Fin 3 → Fin S1024x512x512.rank)
  reducesTo_S1024x512x512_S1024x512_d2 : S1024x512x512.ReducesTo [2] S1024x512
  h_S_ : 0 < S_.numel
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  reducesTo_S1024x512_S1024_d1 : S1024x512.ReducesTo [1] S1024
  bcast_S_S1024 : S_.BroadcastsInDim S1024 (![] : Fin 0 → Fin S1024.rank)

variable [Facts₀]

class Facts : Prop extends Facts₀ where

variable [Facts]
-- ==== Proof.Spec.lean ====
/-
  The layer this certificate is about, as one function of its three argument arrays, over the extended reals.

  A sample `b` is a row of 256 truth values `x b v`; a conjunction `c` is a row of 512 logits `cj c l`, one per
  literal: literal `l < 256` is the variable `v = l`, literal `256 + v` its complement `1 - x b v`. With the
  membership `μ = logistic (cj c l)`, the potential of literal `l` is `μ · lit + (1 - μ)`, the fit of sample `b`
  to conjunction `c` is the minimum of the 512 potentials (a fuzzy AND), and the result is
  `5 + ∑ c, fit b c · w c`.

  Two laws of the extended reals join the two programs' spellings of this value, and neither needs a finite
  operand: `min` over the 512 literals is `min` of the minima over the two halves (`fold_min_halves`:
  both sides have the same lower bounds), and a sum over the 512 conjunctions is the sum over 8 tiles of the sums
  over a tile's 64 conjunctions (`sum_tiles`: addition on the extended reals is a commutative monoid).
-/
import Idealize.ShloMosaic.PureOps.Ideal
import Idealize.ShloMosaic.PureOps.Ideal.Laws
import Idealize.ShloMosaic.Lib.ValueIdx

noncomputable section

namespace Cert.RuleNet

open Idealize.ShloMosaic Idealize.ShloMosaic.ValueIdx

/-- The float patterns the programs spell, read at the ideal values: `1.0`, `5.0`, `+∞` (the minimum's start). -/
abbrev one : EReal := Ideal.ofBits .f32 0x3F800000#32
abbrev five : EReal := Ideal.ofBits .f32 0x40A00000#32
abbrev top : EReal := Ideal.ofBits .f32 0x7F800000#32

/-- The pattern of `1.0` denotes the extended real `1`: where one program spells the logistic function as
    `1 / (1 + e^(-x))` with that pattern, it is the function the other names. -/
theorem one_eq : one = 1 := by
  simp [Ideal.ofBits, Ideal.ieee, -EReal.coe_mul]; norm_num

/-- Literal `v` of the first half: the variable itself. -/
def lo (v : Fin 256) : Fin 512 := ⟨v.val, by have := v.isLt; omega⟩
/-- Literal `256 + v` of the second half: the variable's complement. -/
def hi (v : Fin 256) : Fin 512 := ⟨256 + v.val, by have := v.isLt; omega⟩

/-- The truth value of literal `l` on a sample row `xr`. -/
def lit (xr : Fin 256 → EReal) (l : Fin 512) : EReal :=
  if h : l.val < 256 then xr ⟨l.val, h⟩ else one - xr ⟨l.val - 256, by have := l.isLt; omega⟩

theorem lit_lo (xr : Fin 256 → EReal) (v : Fin 256) : lit xr (lo v) = xr v := by
  unfold lit
  exact (dif_pos (show (lo v).val < 256 from v.isLt)).trans rfl

theorem lit_hi (xr : Fin 256 → EReal) (v : Fin 256) : lit xr (hi v) = one - xr v := by
  unfold lit
  refine (dif_neg (show ¬ (hi v).val < 256 from by show ¬ (256 + v.val < 256); omega)).trans ?_
  exact congrArg (fun k => one - xr k) (Fin.ext (by show 256 + v.val - 256 = v.val; omega))

/-- The potential of literal `l`: `μ · lit + (1 - μ)` with `μ` the logistic of the conjunction's logit. -/
def pot (xr : Fin 256 → EReal) (cr : Fin 512 → EReal) (l : Fin 512) : EReal :=
  Ideal.logistic (cr l) * lit xr l + (one - Ideal.logistic (cr l))

theorem pot_lo (xr : Fin 256 → EReal) (cr : Fin 512 → EReal) (v : Fin 256) :
    pot xr cr (lo v) = Ideal.logistic (cr (lo v)) * xr v + (one - Ideal.logistic (cr (lo v))) := by
  unfold pot; rw [lit_lo]

theorem pot_hi (xr : Fin 256 → EReal) (cr : Fin 512 → EReal) (v : Fin 256) :
    pot xr cr (hi v) = Ideal.logistic (cr (hi v)) * (one - xr v) + (one - Ideal.logistic (cr (hi v))) := by
  unfold pot; rw [lit_hi]

/-- A fold of `min` over the 512 literals is the `min` of the folds over the two halves: an extended real is below
    one side exactly when it is below the start value and below every literal's value. -/
theorem fold_min_halves (T : EReal) (f : Fin 512 → EReal) :
    Finset.univ.fold min T f
      = min (Finset.univ.fold min T (fun v : Fin 256 => f (lo v))) (Finset.univ.fold min T (fun v : Fin 256 => f (hi v))) := by
  refine eq_of_forall_le_iff fun c => ?_
  rw [le_min_iff, Finset.le_fold_min, Finset.le_fold_min, Finset.le_fold_min]
  constructor
  · rintro ⟨hT, hf⟩
    exact ⟨⟨hT, fun v _ => hf (lo v) (Finset.mem_univ _)⟩, ⟨hT, fun v _ => hf (hi v) (Finset.mem_univ _)⟩⟩
  · rintro ⟨⟨hT, h1⟩, ⟨_, h2⟩⟩
    refine ⟨hT, fun l _ => ?_⟩
    have hl := l.isLt
    by_cases h : l.val < 256
    · have e : lo ⟨l.val, h⟩ = l := Fin.ext rfl
      have := h1 ⟨l.val, h⟩ (Finset.mem_univ _)
      rwa [e] at this
    · have e : hi ⟨l.val - 256, by omega⟩ = l := Fin.ext (by show 256 + (l.val - 256) = l.val; omega)
      have := h2 ⟨l.val - 256, by omega⟩ (Finset.mem_univ _)
      rwa [e] at this

/-- The fit of a sample row to a conjunction row: the minimum over the first half's potentials and the minimum over
    the second half's, the smaller of the two. -/
def fitRow (xr : Fin 256 → EReal) (cr : Fin 512 → EReal) : EReal :=
  min (Finset.univ.fold min top (fun v : Fin 256 => pot xr cr (lo v)))
    (Finset.univ.fold min top (fun v : Fin 256 => pot xr cr (hi v)))

/-- It is the minimum over all 512 potentials. -/
theorem fitRow_eq_fold (xr : Fin 256 → EReal) (cr : Fin 512 → EReal) :
    fitRow xr cr = Finset.univ.fold min top (pot xr cr) :=
  (fold_min_halves top (pot xr cr)).symm

/-- Conjunction `r` of tile `s` (64 conjunctions a tile); total in `s`, the tiles of the array being `s < 8`. -/
def colOf (s : Nat) (r : Fin 64) : Fin 512 := ⟨(64 * s + r.val) % 512, Nat.mod_lt _ (by decide)⟩

/-- Sample `b'` of tile `q` (128 samples a tile); total in `q`, the tiles of the array being `q < 8`. -/
def rowOf (q : Nat) (b' : Fin 128) : Fin 1024 := ⟨(128 * q + b'.val) % 1024, Nat.mod_lt _ (by decide)⟩

/-- A sum over the 512 conjunctions is the sum over the 8 tiles of the sums over a tile. -/
theorem sum_tiles {M : Type*} [AddCommMonoid M] (g : Fin 512 → M) :
    ∑ c : Fin 512, g c = ∑ s ∈ Finset.range 8, ∑ r : Fin 64, g (colOf s r) := by
  rw [Finset.sum_range (fun s => ∑ r : Fin 64, g (colOf s r)),
    ← Fintype.sum_prod_type' (fun (s : Fin 8) (r : Fin 64) => g (colOf s.val r))]
  refine (Equiv.sum_comp (finProdFinEquiv : Fin 8 × Fin 64 ≃ Fin 512) g).symm.trans
    (Finset.sum_congr rfl fun p _ => congrArg g (Fin.ext ?_))
  obtain ⟨s, r⟩ := p
  have hs := s.isLt
  have hr := r.isLt
  show r.val + 64 * s.val = (64 * s.val + r.val) % 512
  omega

/-! ## The result -/

abbrev SX : Shape := ⟨2, ![1024, 256]⟩
abbrev SC : Shape := ⟨2, ![512, 512]⟩
abbrev SW : Shape := ⟨1, ![512]⟩
abbrev SO : Shape := ⟨1, ![1024]⟩

/-- Row `b` of the samples, row `c` of the conjunctions. -/
def xrow (x : SX.Idx → EReal) (b : Fin 1024) : Fin 256 → EReal := fun v => x (ix2 b v)
def crow (cj : SC.Idx → EReal) (c : Fin 512) : Fin 512 → EReal := fun l => cj (ix2 c l)

/-- The result for sample `b`: `5 + ∑ c, fit b c · w c`. -/
def Gb (x : SX.Idx → EReal) (cj : SC.Idx → EReal) (w : SW.Idx → EReal) (b : Fin 1024) : EReal :=
  five + ∑ c : Fin 512, fitRow (xrow x b) (crow cj c) * w (ix1 c)

/-- The result array. -/
def G (x : SX.Idx → EReal) (cj : SC.Idx → EReal) (w : SW.Idx → EReal) : SO.Idx → EReal :=
  fun i => Gb x cj w (i 0)

/-- The result as the tiled program accumulates it: tile by tile of 64 conjunctions. -/
theorem Gb_tiles (x : SX.Idx → EReal) (cj : SC.Idx → EReal) (w : SW.Idx → EReal) (b : Fin 1024) :
    Gb x cj w b
      = five + ∑ s ∈ Finset.range 8, ∑ r : Fin 64, fitRow (xrow x b) (crow cj (colOf s r)) * w (ix1 (colOf s r)) := by
  unfold Gb
  rw [sum_tiles (fun c : Fin 512 => fitRow (xrow x b) (crow cj c) * w (ix1 c))]

/-- The result as the whole-array program spells it: the weight first, the minimum over all 512 literals, the sum
    started from the zero pattern. -/
theorem Gb_whole (x : SX.Idx → EReal) (cj : SC.Idx → EReal) (w : SW.Idx → EReal) (b : Fin 1024) :
    Gb x cj w b
      = five + (Ideal.ofBits .f32 0x00000000#32
          + ∑ c : Fin 512, w (ix1 c) * Finset.univ.fold min top (pot (xrow x b) (crow cj c))) := by
  unfold Gb
  rw [Ideal.ofBits_zero_f32, zero_add]
  refine congrArg (five + ·) (Finset.sum_congr rfl fun c _ => ?_)
  rw [fitRow_eq_fold, mul_comm]

end Cert.RuleNet

end
-- ==== Proof.RefValue.lean ====
/-
  The whole-array program computes the layer's result `G` (Proof/Spec.lean), index by index.

  Its stages are read one operation at a time (the read-at-an-index lemmas of the run's stages); three are read
  here. The membership: negate, exponential, add one, divide one by it is the logistic function on the extended
  reals. The joined sample row `concatenate (x, 1 - x)` at literal `l` is the variable for `l < 256` and its
  complement for `l ≥ 256`. The minimum over the literal axis is the fold of `min` from `+∞` over that axis's 512
  coordinates.
-/
import proofs.«164170_j57303453663343_1_alg».proof.Proof.RefRead
import proofs.«164170_j57303453663343_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.PRead
open Idealize.ShloMosaic Idealize.ShloMosaic.ValueIdx Cert.RuleNet

variable (x : FVec Ideal S1024x256 .f32) (cj : FVec Ideal S512x512 .f32) (w : FVec Ideal S512 .f32)

/-- The membership of literal `l` in conjunction `c`: `1 / (1 + e^(-logit))` is the logistic function. -/
theorem mu_apply (c l : Fin 512) :
    val_main_v5 (F := Ideal) cj (ix2 c l) = Ideal.logistic (cj (ix2 c l)) := by
  rw [val_main_v5_apply, val_main_v4_apply, val_main_cst_0_apply, val_main_v3_apply, val_main_v2_apply,
    val_main_cst_apply, val_main_v1_apply, val_main_v0_apply]
  show Ideal.div one (one + Ideal.exp (-(cj (ix2 c l)))) = Ideal.div 1 (1 + Ideal.exp (-(cj (ix2 c l))))
  rw [one_eq]

/-- The joined row at literal `l`: the variable in the first half, its complement in the second. -/
theorem cat_apply (b : Fin 1024) (l : Fin 512) :
    val_main_v8 (F := Ideal) x (ix2 b l) = lit (xrow x b) l := by
  have hl := l.isLt
  unfold val_main_v8 lit
  by_cases h : l.val < 256
  · rw [dif_pos h]
    exact concatenate_pair_apply_left (1 : Fin 2) x (val_main_v7 (F := Ideal) x)
      concatenates_S1024x256_S1024x256_S1024x512_d1 (ix2 b l) rfl (ix2 b ⟨l.val, h⟩)
      (fun a => by match a with | ⟨0, _⟩ => rfl | ⟨1, _⟩ => rfl)
  · rw [dif_neg h]
    refine (concatenate_pair_apply_right (1 : Fin 2) x (val_main_v7 (F := Ideal) x)
      concatenates_S1024x256_S1024x256_S1024x512_d1 (ix2 b l) rfl rfl (ix2 b ⟨l.val - 256, by omega⟩)
      (fun a ha => by match a, ha with | ⟨0, _⟩, _ => rfl | ⟨1, _⟩, ha => exact absurd rfl ha)
      (by show l.val - 256 + 256 = l.val; omega)).trans ?_
    rw [val_main_v7_apply, val_main_v6_apply, val_main_cst_1_apply]
    rfl

/-- The potential of literal `l` for sample `b` and conjunction `c`. -/
theorem pot_apply (b : Fin 1024) (c l : Fin 512) :
    val_main_v18 (F := Ideal) x cj (ix3 b c l) = pot (xrow x b) (crow cj c) l := by
  have e9 : idx_main_v9 (idx_main_v11 (ix3 b c l)) = ix2 c l :=
    funext fun a => Fin.ext (by match a with | ⟨0, _⟩ => rfl | ⟨1, _⟩ => rfl)
  have e10 : idx_main_v10 (idx_main_v12 (ix3 b c l)) = ix2 b l :=
    funext fun a => Fin.ext (by match a with | ⟨0, _⟩ => rfl | ⟨1, _⟩ => rfl)
  have e16 : idx_main_v16 (idx_main_v17 (ix3 b c l)) = ix2 c l :=
    funext fun a => Fin.ext (by match a with | ⟨0, _⟩ => rfl | ⟨1, _⟩ => rfl)
  rw [val_main_v18_apply, val_main_v13_apply, val_main_v11_apply, val_main_v9_apply, val_main_v12_apply,
    val_main_v10_apply, val_main_v17_apply, val_main_v16_apply, val_main_v15_apply, val_main_v14_apply,
    val_main_cst_2_apply, e9, e10, e16, mu_apply, cat_apply]
  rfl

/-- The literal axis is the last of the three. -/
theorem reduces_lit : S1024x512x512.Reduces [2] S1024x512 := by decide

/-- A minimum over the literal axis, from `+∞`, at `(b, c)`: the fold of `min` over the 512 literals. -/
theorem min_reduce_apply (y : FVec Ideal S1024x512x512 .f32) (b : Fin 1024) (c : Fin 512) :
    Host.reduce FloatOps.minimumf y (val_main_cst_3 (F := Ideal)) reducesTo_S1024x512x512_S1024x512_d2 h_S_ (ix2 b c)
      = (Finset.univ : Finset (Fin 512)).fold min top (fun l => y (ix3 b c l)) := by
  refine (Host.reduce_eq_fold_single FloatOps.minimumf y (val_main_cst_3 (F := Ideal))
    reducesTo_S1024x512x512_S1024x512_d2 reduces_lit h_S_ (ix2 b c)).trans ?_
  show (Finset.univ : Finset (Fin 512)).fold min top (fun l => y (reduces_lit.lift (ix2 b c) l)) = _
  refine congrArg (fun f => (Finset.univ : Finset (Fin 512)).fold min top f) (funext fun l => congrArg y ?_)
  exact funext fun a => Fin.ext (by match a with | ⟨0, _⟩ => rfl | ⟨1, _⟩ => rfl | ⟨2, _⟩ => rfl)

/-- The fit of sample `b` to conjunction `c`: the fold of `min` from `+∞` over the 512 literals' potentials. -/
theorem fit_apply (b : Fin 1024) (c : Fin 512) :
    val_main_v19 (F := Ideal) x cj (ix2 b c) = Finset.univ.fold min top (pot (xrow x b) (crow cj c)) := by
  unfold val_main_v19
  rw [min_reduce_apply]
  exact congrArg (fun f => (Finset.univ : Finset (Fin 512)).fold min top f) (funext fun l => pot_apply x cj b c l)

/-- The weighted fit. -/
theorem term_apply (b : Fin 1024) (c : Fin 512) :
    val_main_v22 (F := Ideal) x cj w (ix2 b c) = w (ix1 c) * Finset.univ.fold min top (pot (xrow x b) (crow cj c)) := by
  have e20 : idx_main_v20 (idx_main_v21 (ix2 b c)) = ix1 c :=
    funext fun a => Fin.ext (by match a with | ⟨0, _⟩ => rfl)
  rw [val_main_v22_apply, val_main_v21_apply, val_main_v20_apply, e20, fit_apply]
  rfl

/-- The whole-array program's result is the layer's. -/
theorem ref_eq : val_main_v25 (F := Ideal) x cj w = G x cj w := by
  funext i
  obtain ⟨b, rfl⟩ : ∃ b : Fin 1024, i = ix1 b := ⟨i 0, eq_ix1 i⟩
  show _ = Gb x cj w b
  rw [Gb_whole, val_main_v25_apply, val_main_v24_apply, val_main_cst_5_apply, val_main_v23_apply, val_main_cst_4_apply]
  refine congrArg (fun s => five + (Ideal.ofBits .f32 0x00000000#32 + s)) (Finset.sum_congr rfl fun c _ => ?_)
  refine (congrArg (val_main_v22 (F := Ideal) x cj w) (?_ : _ = ix2 b c)).trans (term_apply x cj w b c)
  exact funext fun a => Fin.ext (by match a with | ⟨0, _⟩ => rfl | ⟨1, _⟩ => rfl)

end Cert.ReferenceIdeal.RefValue

end
-- ==== Proof.Pieces.lean ====
/-
  What each case of the body leaves in the output's staging block, as a pure term of the blocks it read.

  At the first conjunction tile of a sample tile the block is reset to the splat of `5.0`, read back, and the
  tile's partial sums are added; at every later tile the block the point before left is read and the partial sums
  are added to it. The stores and loads go through the whole block, so the pieces read back as their payloads.
-/
import proofs.«164170_j57303453663343_1_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of a whole-block access, however the zeros are spelt. -/
theorem hz : (![0, 0] : Fin 2 → Nat) = fun _ => 0 := by
  funext a; fin_cases a <;> rfl

/-- The reset case: the partial sums added to the splat of `5.0`. -/
theorem out_reset (c : Dev nD) (i : grid0.Coords) (arg2 : Memref sig .tc .vmem S128x256 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S1x128 .f32) (harg5 : arg5.IsWhole) (hc0 : cond0_0 i)
    (x0 : Vec F S128x256 .f32) (x1 : Vec F S64x512 .f32) (x2 : Vec F S64x1 .f32) :
    out0_A_3 c i arg2 harg2 arg3 harg3 arg4 harg4 arg5 harg5 hc0 x0 x1 x2 = k0_pay1 (k0_pay3 x0 x1 x2) (k0_pay4 (k0_pay2 (F := F))) := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S1x128) hz]
  simp only [View.readAt_eq_ld, harg2.read_unread, harg3.read_unread, harg4.read_unread,
    View.ld_unit_zero (S := S128x256) hz, View.ld_unit_zero (S := S64x512) hz, View.ld_unit_zero (S := S64x1) hz,
    View.readCov_unit_zero (S := S1x128) _ hz]

/-- The accumulating case: the partial sums added to what the point before left. -/
theorem out_step (c : Dev nD) (i : grid0.Coords) (arg2 : Memref sig .tc .vmem S128x256 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S1x128 .f32) (harg5 : arg5.IsWhole) (hc0 : ¬cond0_0 i)
    (x0 : Vec F S128x256 .f32) (x1 : Vec F S64x512 .f32) (x2 : Vec F S64x1 .f32) (xo3 : Vec F S1x128 .f32) :
    out0_B_3 c i arg2 harg2 arg3 harg3 arg4 harg4 arg5 harg5 hc0 x0 x1 x2 xo3 = k0_pay1 (k0_pay3 x0 x1 x2) (k0_pay4 xo3) := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_words
  rw [View.canon_unit_zero (S := S1x128) hz]
  simp only [View.readAt_eq_ld, harg2.read_unread, harg3.read_unread, harg4.read_unread, harg5.read_unread,
    View.ld_unit_zero (S := S128x256) hz, View.ld_unit_zero (S := S64x512) hz, View.ld_unit_zero (S := S64x1) hz,
    View.ld_unit_zero (S := S1x128) hz]

end Cert.KernelIdeal.Pieces

end
-- ==== Proof.Payload.lean ====
/-
  The body's arithmetic at an index, at the ideal values: for the sample `b'` of the point's sample tile, the tile's
  partial sum is `∑ r, fit b' r · w r` over the 64 conjunctions `r` of the point's conjunction tile, where the fit is
  the smaller of the minima over the two halves of the literals (Proof/Spec.lean `fitRow`).

  The layout operations are read at an index one at a time: a conjunction-tile array `[c, v]` viewed `[c, 1, v]` and
  spread over the samples, the sample tile `[b, v]` viewed `[1, b, v]` and spread over the conjunctions, the weights'
  column `[c, 1]` spread over the samples, the two halves of the 512 memberships, the minimum over the variable axis
  and the sum over the conjunction axis.
-/
import proofs.«164170_j57303453663343_1_alg».proof.Proof.Gen.KernelIdeal.Skeleton
import proofs.«164170_j57303453663343_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx Cert.RuleNet

variable {α : Type}

/-! ## Layout operations at an index -/

/-- `[c, v]` viewed `[c, 1, v]`. -/
theorem cast_mid_apply (y : S64x256.Idx → α) (h : S64x256.ShapeCasts S64x1x256) (r : Fin 64) (u : Fin 1) (v : Fin 256) :
    shapeCast S64x1x256 y h (ix3 r u v) = y (ix2 r v) :=
  shapeCast_apply y h _ _ (by
    have hu : u.val = 0 := by omega
    rw [Shape.rowMajor_val_three, Shape.rowMajor_val_two]
    show r.val * 256 + v.val = (r.val * 1 + u.val) * 256 + v.val
    rw [hu]; omega)

/-- `[c, 1, v]` spread over the samples. -/
theorem spread_b_apply (y : S64x1x256.Idx → α) (h : S64x1x256.Broadcasts S64x128x256) (r : Fin 64) (b' : Fin 128) (v : Fin 256) :
    broadcastTo S64x128x256 y h (ix3 r b' v) = y (ix3 r (0 : Fin 1) v) := by
  refine broadcastTo_apply y h (ix3 r b' v) (ix3 r (0 : Fin 1) v) fun ax => ?_
  match ax with
  | ⟨0, _⟩ => exact show r.val = if (64 : Nat) = 1 then 0 else r.val from (if_neg (by decide)).symm
  | ⟨1, _⟩ => exact show (0 : Nat) = if (1 : Nat) = 1 then 0 else b'.val from (if_pos rfl).symm
  | ⟨2, _⟩ => exact show v.val = if (256 : Nat) = 1 then 0 else v.val from (if_neg (by decide)).symm

/-- `[1, b, v]` spread over the conjunctions. -/
theorem spread_c_apply (y : S1x128x256.Idx → α) (h : S1x128x256.Broadcasts S64x128x256) (r : Fin 64) (b' : Fin 128) (v : Fin 256) :
    broadcastTo S64x128x256 y h (ix3 r b' v) = y (ix3 (0 : Fin 1) b' v) := by
  refine broadcastTo_apply y h (ix3 r b' v) (ix3 (0 : Fin 1) b' v) fun ax => ?_
  match ax with
  | ⟨0, _⟩ => exact show (0 : Nat) = if (1 : Nat) = 1 then 0 else r.val from (if_pos rfl).symm
  | ⟨1, _⟩ => exact show b'.val = if (128 : Nat) = 1 then 0 else b'.val from (if_neg (by decide)).symm
  | ⟨2, _⟩ => exact show v.val = if (256 : Nat) = 1 then 0 else v.val from (if_neg (by decide)).symm

/-- The weights' column `[c, 1]` spread over the samples. -/
theorem col_apply (y : S64x1.Idx → α) (h : S64x1.Broadcasts S64x128) (r : Fin 64) (b' : Fin 128) :
    broadcastTo S64x128 y h (ix2 r b') = y (ix2 r (0 : Fin 1)) := by
  refine broadcastTo_apply y h (ix2 r b') (ix2 r (0 : Fin 1)) fun ax => ?_
  match ax with
  | ⟨0, _⟩ => exact show r.val = if (64 : Nat) = 1 then 0 else r.val from (if_neg (by decide)).symm
  | ⟨1, _⟩ => exact show (0 : Nat) = if (1 : Nat) = 1 then 0 else b'.val from (if_pos rfl).symm

/-- The first half of the 512 columns: literal `lo v`. -/
theorem half_lo_apply (y : S64x512.Idx → α) (h : S64x512.Slices ![0, 0] S64x256) (r : Fin 64) (v : Fin 256) :
    extractStridedSlice S64x256 ![0, 0] y h (ix2 r v) = y (ix2 r (lo v)) :=
  slice2_axis1_apply 0 y h r v (lo v) (Nat.zero_add _).symm

/-- The second half: literal `hi v`. -/
theorem half_hi_apply (y : S64x512.Idx → α) (h : S64x512.Slices ![0, 256] S64x256) (r : Fin 64) (v : Fin 256) :
    extractStridedSlice S64x256 ![0, 256] y h (ix2 r v) = y (ix2 r (hi v)) :=
  slice2_axis1_apply 256 y h r v (hi v) rfl

/-! ## The two reductions -/

/-- The minimum over the variable axis, from `+∞`: the fold of `min` over the 256 variables. -/
theorem min_lane (src : FVec Ideal S64x128x256 .f32) (h : S64x128x256.Reduces [2] S64x128) (hφ : FKind.Formats .f32)
    (hacc : (0x7F800000#32 : BitVec 32) = FKind.minimumf.neutral .f32 hφ) (r : Fin 64) (b' : Fin 128) :
    multiReduction .minimumf [2] S64x128 src 0x7F800000#32 h hφ hacc (ix2 r b')
      = (Finset.univ : Finset (Fin 256)).fold min top (fun v => src (ix3 r b' v)) := by
  refine (multiReduction_minimumf_eq_fold src _ h hφ hacc (ix2 r b')).trans ?_
  refine (h.fold_filter_drop_single FloatOps.minimumf (FloatOps.ofBits .f32 0x7F800000#32) src (ix2 r b')).trans ?_
  show (Finset.univ : Finset (Fin 256)).fold min top (fun v => src (h.lift (ix2 r b') v)) = _
  refine congrArg (fun f => (Finset.univ : Finset (Fin 256)).fold min top f) (funext fun v => congrArg src ?_)
  exact funext fun a => Fin.ext (by match a with | ⟨0, _⟩ => rfl | ⟨1, _⟩ => rfl | ⟨2, _⟩ => rfl)

/-- The sum over the conjunction axis: the sum over the tile's 64 conjunctions. -/
theorem add_rows (src : FVec Ideal S64x128 .f32) (h : S64x128.Reduces [0] S128) (hφ : FKind.Formats .f32)
    (hacc : (0x00000000#32 : BitVec 32) = FKind.add.neutral .f32 hφ) (b' : Fin 128) :
    multiReduction .add [0] S128 src 0x00000000#32 h hφ hacc (ix1 b') = ∑ r : Fin 64, src (ix2 r b') := by
  refine (Ideal.multiReduction_add_single src _ h hφ hacc (ix1 b')).trans ?_
  refine Finset.sum_congr rfl fun r _ => congrArg src ?_
  exact funext fun a => Fin.ext (by match a with | ⟨0, _⟩ => rfl | ⟨1, _⟩ => rfl)

/-! ## The tile's partial sum -/

/-- The partial sum the body adds into the output block, at sample `b'` of the tile. -/
theorem pay3_apply (x0 : FVec Ideal S128x256 .f32) (x1 : FVec Ideal S64x512 .f32) (x2 : FVec Ideal S64x1 .f32) (b' : Fin 128) :
    k0_pay3 (F := Ideal) x0 x1 x2 (ix2 (0 : Fin 1) b')
      = ∑ r : Fin 64, fitRow (fun v => x0 (ix2 b' v)) (fun l => x1 (ix2 r l)) * x2 (ix2 r (0 : Fin 1)) := by
  unfold k0_pay3
  dsimp only
  refine (shapeCast_a_1a_apply _ _ (0 : Fin 1) b').trans ?_
  refine (add_rows _ _ _ _ b').trans (Finset.sum_congr rfl fun r _ => ?_)
  refine (mulf_apply _ _ _).trans (congrArg₂ (· * ·) ?_ ?_)
  · refine (minimumf_apply _ _ _).trans (congrArg₂ min ?_ ?_)
    · refine (min_lane _ _ _ _ r b').trans
        (congrArg (fun f => (Finset.univ : Finset (Fin 256)).fold min top f) (funext fun v => ?_))
      rw [pot_lo]
      simp only [addf_apply, mulf_apply, subf_apply, spread_b_apply, spread_c_apply, cast_mid_apply,
        shapeCast_ab_1ab_apply, broadcast_apply, half_lo_apply]
      rfl
    · refine (min_lane _ _ _ _ r b').trans
        (congrArg (fun f => (Finset.univ : Finset (Fin 256)).fold min top f) (funext fun v => ?_))
      rw [pot_hi]
      simp only [addf_apply, mulf_apply, subf_apply, spread_b_apply, spread_c_apply, cast_mid_apply,
        shapeCast_ab_1ab_apply, broadcast_apply, half_hi_apply]
      rfl
  · refine (col_apply _ _ r b').trans ?_
    rw [shapeCast_self]

end Cert.KernelIdeal.Payload

end
-- ==== Proof.Accum.lean ====
/-
  The tiled program's output array, at the ideal values, is the layer's result (Proof/Spec.lean).

  The grid is 8 sample tiles by 8 conjunction tiles, row-major: point `t` works on sample tile `t / 8` (128 samples)
  and conjunction tile `t % 8` (64 conjunctions). The output block of a sample tile stays in place over its 8 points:
  the first resets it to `5` and adds the first tile's partial sums, each later one adds its own, and the last writes
  it back. So what is written back for sample `b` is `5 + ∑ s < 8, ∑ r < 64, fit b (64 s + r) · w (64 s + r)`, which is
  the result by the regrouping of the sum over the 512 conjunctions into tiles.

  The blocks the body reads are rows of the argument arrays: sample `b'` of the tile is row `128 (t / 8) + b'`,
  conjunction `r` of the tile is row `64 (t % 8) + r`, and the weights' column is the weights' vector viewed `[512, 1]`.
-/
import proofs.«164170_j57303453663343_1_alg».proof.Proof.Gen.KernelIdeal.Frame
import proofs.«164170_j57303453663343_1_alg».proof.Proof.Pieces
import proofs.«164170_j57303453663343_1_alg».proof.Proof.Payload
import proofs.«164170_j57303453663343_1_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Accum

open Cert.KernelIdeal Cert.KernelIdeal.Gen
open Idealize.ShloMosaic Idealize.ShloMosaic.TcCoe Idealize.SL.Sem Idealize.ShloMosaic.ValueIdx Cert.RuleNet
open Idealize.ShloMosaic.Pipeline (Dat)

variable (m : (ℓ : Loc nD τ sig) → Buf (Elt Ideal) ℓ) (ρ : Dev nD → PrngReg)

/-- The three argument arrays, at their literal types. -/
abbrev xarr (c : Dev nD) : FVec Ideal S1024x256 .f32 := m ((c : Thread nD τ).loc main_arg0)
abbrev carr (c : Dev nD) : FVec Ideal S512x512 .f32 := m ((c : Thread nD τ).loc main_arg1)
abbrev warr (c : Dev nD) : FVec Ideal S512 .f32 := m ((c : Thread nD τ).loc main_arg2)

/-- The three input blocks of point `t`, at their literal types. -/
abbrev xblk (c : Dev nD) (t : Fin cfg0.N) : FVec Ideal S128x256 .f32 := iblk m c 0 t
abbrev cblk (c : Dev nD) (t : Fin cfg0.N) : FVec Ideal S64x512 .f32 := iblk m c 1 t
abbrev wblk (c : Dev nD) (t : Fin cfg0.N) : FVec Ideal S64x1 .f32 := iblk m c 2 t

/-- The block indices of the four windows at point `t`: the sample tile is `t / 8`, the conjunction tile `t % 8`. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = 0 ∧ win0_3.index t (1 : Fin 2) = t.val / 8 :=
  (by decide +kernel : ∀ t : Fin grid0.N, _)

/-- The weights' column the region stages is the weights' vector viewed `[512, 1]`. -/
theorem V_main_v0 (c : Dev nD) :
    V m c main_v0 = shapeCast S512x1 (m ((c : Thread nD τ).loc main_arg2)) shapeCasts_S512_S512x1 := by
  show StableHlo.after hostOps0 (fun b => m (c, b)) (Proc.devRef .tc main_v0) = _
  after_results
  rfl

/-! ## The blocks are rows of the arrays -/

theorem xblk_apply (c : Dev nD) (t : Fin cfg0.N) (b' : Fin 128) (v : Fin 256) :
    xblk m c t (ix2 b' v) = xarr m c (ix2 (rowOf (t.val / 8) b') v) := by
  have ht : t.val < 64 := lt_of_lt_of_eq t.isLt N_0
  have hb := b'.isLt
  obtain ⟨e0, e1, -⟩ := idx_facts t
  show V m c main_arg0 (((cfg0.win 0).blk t).view.emb (ix2 b' v)) = _
  rw [V_main_arg0]
  refine congrArg (m ((c : Thread nD τ).loc main_arg0)) (funext fun a => Fin.ext ?_)
  match a with
  | ⟨0, _⟩ =>
    show win0_0.index t (0 : Fin 2) * 128 + 1 * b'.val = (128 * (t.val / 8) + b'.val) % 1024
    rw [e0]; omega
  | ⟨1, _⟩ =>
    show win0_0.index t (1 : Fin 2) * 256 + 1 * v.val = v.val
    rw [e1]; omega

theorem cblk_apply (c : Dev nD) (t : Fin cfg0.N) (r : Fin 64) (l : Fin 512) :
    cblk m c t (ix2 r l) = carr m c (ix2 (colOf (t.val % 8) r) l) := by
  have hr := r.isLt
  obtain ⟨-, -, e0, e1, -⟩ := idx_facts t
  show V m c main_arg1 (((cfg0.win 1).blk t).view.emb (ix2 r l)) = _
  rw [V_main_arg1]
  refine congrArg (m ((c : Thread nD τ).loc main_arg1)) (funext fun a => Fin.ext ?_)
  match a with
  | ⟨0, _⟩ =>
    show win0_1.index t (0 : Fin 2) * 64 + 1 * r.val = (64 * (t.val % 8) + r.val) % 512
    rw [e0]; omega
  | ⟨1, _⟩ =>
    show win0_1.index t (1 : Fin 2) * 512 + 1 * l.val = l.val
    rw [e1]; omega

theorem wblk_apply (c : Dev nD) (t : Fin cfg0.N) (r : Fin 64) :
    wblk m c t (ix2 r (0 : Fin 1)) = warr m c (ix1 (colOf (t.val % 8) r)) := by
  have hr := r.isLt
  obtain ⟨-, -, -, -, e0, e1, -⟩ := idx_facts t
  show V m c main_v0 (((cfg0.win 2).blk t).view.emb (ix2 r (0 : Fin 1))) = _
  rw [V_main_v0]
  refine shapeCast_apply _ _ _ _ ?_
  show (S512.rowMajor (ix1 (colOf (t.val % 8) r))).val
    = (S512x1.rowMajor (((cfg0.win 2).blk t).view.emb (ix2 r (0 : Fin 1)))).val
  rw [Shape.rowMajor_val_one, Shape.rowMajor_val_two]
  show (64 * (t.val % 8) + r.val) % 512
    = (win0_2.index t (0 : Fin 2) * 64 + 1 * r.val) * 1 + (win0_2.index t (1 : Fin 2) * 1 + 1 * 0)
  rw [e0, e1]; omega

/-! ## One point's addend -/

/-- The sample a block index names: its lane. -/
def lane (y : S1x128.Idx) : Fin 128 := ⟨(y 1).val, idx2_lt1 y⟩

theorem eq_lane (y : S1x128.Idx) : y = ix2 (0 : Fin 1) (lane y) := by
  funext a
  match a with
  | ⟨0, _⟩ => exact Fin.ext (by have := idx2_lt0 y; show (y 0).val = 0; omega)
  | ⟨1, _⟩ => rfl

/-- What point `n` adds for the sample at block index `y`: its conjunction tile's partial sum. -/
def addend (c : Dev nD) (n : Nat) (y : S1x128.Idx) : EReal :=
  ∑ r : Fin 64, fitRow (xrow (xarr m c) (rowOf (n / 8) (lane y))) (crow (carr m c) (colOf (n % 8) r))
    * warr m c (ix1 (colOf (n % 8) r))

/-- The body's partial sums at point `t` are that addend. -/
theorem pay3_point (c : Dev nD) (t : Fin cfg0.N) (y : S1x128.Idx) :
    k0_pay3 (F := Ideal) (xblk m c t) (cblk m c t) (wblk m c t) y = addend m c t.val y := by
  obtain ⟨b', rfl⟩ : ∃ b' : Fin 128, y = ix2 (0 : Fin 1) b' := ⟨lane y, eq_lane y⟩
  refine (Payload.pay3_apply (xblk m c t) (cblk m c t) (wblk m c t) b').trans ?_
  unfold addend
  refine Finset.sum_congr rfl fun r _ => ?_
  refine congrArg₂ (· * ·) (congrArg₂ fitRow (funext fun v => ?_) (funext fun l => ?_)) ?_
  · exact xblk_apply m c t b' v
  · exact cblk_apply m c t r l
  · exact wblk_apply m c t r

/-- The stored block: the partial sums added to what was read from the block. -/
theorem step_apply (x0 : FVec Ideal S128x256 .f32) (x1 : FVec Ideal S64x512 .f32) (x2 : FVec Ideal S64x1 .f32)
    (acc : FVec Ideal S1x128 .f32) (y : S1x128.Idx) :
    k0_pay1 (F := Ideal) (k0_pay3 x0 x1 x2) (k0_pay4 acc) y = acc y + k0_pay3 (F := Ideal) x0 x1 x2 y := by
  unfold k0_pay1 k0_pay4
  rw [shapeCast_self]
  rfl

/-! ## The fold over a sample tile's eight points -/

/-- What the reset point leaves, and what a later point makes of what the point before left. -/
def resetAt (c : Dev nD) (n : Nat) (h : n < cfg0.N) : FVec Ideal S1x128 .f32 :=
  k0_pay1 (k0_pay3 (xblk m c ⟨n, h⟩) (cblk m c ⟨n, h⟩) (wblk m c ⟨n, h⟩)) (k0_pay4 (k0_pay2 (F := Ideal)))
def stepAt (c : Dev nD) (n : Nat) (h : n < cfg0.N) (acc : FVec Ideal S1x128 .f32) : FVec Ideal S1x128 .f32 :=
  k0_pay1 (k0_pay3 (xblk m c ⟨n, h⟩) (cblk m c ⟨n, h⟩) (wblk m c ⟨n, h⟩)) (k0_pay4 acc)

theorem outs_reset (c : Dev nD) (n : Nat) (h : n < cfg0.N) (h0 : n % 8 = 0) :
    outsAt0 m c n h = resetAt m c n h :=
  (outsAt0_A m c ⟨n, h⟩ h0).trans
    (Pieces.out_reset (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0_0 ⟨n, h⟩).mpr h0)
      (iblk m c 0 ⟨n, h⟩) (iblk m c 1 ⟨n, h⟩) (iblk m c 2 ⟨n, h⟩))

theorem outs_step (c : Dev nD) (n : Nat) (h : n + 1 < cfg0.N) (hB : ¬(n + 1) % 8 = 0) :
    outsAt0 m c (n + 1) h = stepAt m c (n + 1) h (outsAt0 m c n (Nat.lt_of_succ_lt h)) :=
  (outsAt0_B m c ⟨n + 1, h⟩ hB).trans
    (Pieces.out_step (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => hB ((hcond0_0 ⟨n + 1, h⟩).mp hh))
      (iblk m c 0 ⟨n + 1, h⟩) (iblk m c 1 ⟨n + 1, h⟩) (iblk m c 2 ⟨n + 1, h⟩) (outsAt0 m c n (Nat.lt_of_succ_lt h)))

/-- At the point that writes the block back, the block holds `5` plus the eight points' addends. -/
theorem outs_flush_apply (c : Dev nD) (t : Fin cfg0.N) (h7 : t.val % 8 = 7) (y : S1x128.Idx) :
    outsAt0 m c t.val t.isLt y = five + ∑ s ∈ Finset.range 8, addend m c (8 * (t.val / 8) + s) y := by
  have h' : 8 * (t.val / 8) + t.val % 8 < cfg0.N := by rw [Nat.div_add_mod]; exact t.isLt
  rw [Pipeline.eq_accAt_of_mod (outsAt0 m c) 8 (resetAt m c) (stepAt m c)
    (fun n h h0 => outs_reset m c n h h0) (fun n h hB => outs_step m c n h hB) (by decide) t.val t.isLt h']
  have key := Pipeline.accAt_add_apply (resetAt m c) (stepAt m c) (fun _ => five) (fun n y => addend m c n y)
    (8 * (t.val / 8)) 7
    (fun h i => (step_apply (xblk m c ⟨_, h⟩) (cblk m c ⟨_, h⟩) (wblk m c ⟨_, h⟩) (k0_pay2 (F := Ideal)) i).trans
      (congrArg (five + ·) (pay3_point m c ⟨_, h⟩ i)))
    (fun n h acc i _ _ => (step_apply (xblk m c ⟨n, h⟩) (cblk m c ⟨n, h⟩) (wblk m c ⟨n, h⟩) acc i).trans
      (congrArg (acc i + ·) (pay3_point m c ⟨n, h⟩ i)))
    (t.val % 8) (by omega) h' y
  rw [key, h7]

/-! ## The output array -/

/-- The sample an index of the `[1, 1024]` output array names. -/
def col (i : S1x1024.Idx) : Fin 1024 := ⟨(i 1).val, idx2_lt1 i⟩

/-- The output array after the region: the layer's result, as one row. -/
def outArr (c : Dev nD) : S1x1024.Idx → EReal := fun i => Gb (xarr m c) (carr m c) (warr m c) (col i)

/-- What a flushing point writes back is its block of that array. -/
theorem flushed_eq (c : Dev nD) (t : Fin cfg0.N) (hf : (cfg0.win 3).flush t = true) :
    (dats m 0 c).flushed 3 t = ((cfg0.win 3).blk t).view.read (Elt Ideal) (outArr m c) := by
  have h7 : t.val % 8 = 7 := (flush0_3 t).mp hf
  have ht : t.val < 64 := lt_of_lt_of_eq t.isLt N_0
  obtain ⟨-, -, -, -, -, -, e0, e1⟩ := idx_facts t
  show (cfg0.win 3).cut (grid0.coords t) ((dats m 0 c).after 3 t) = _
  rw [after0_3]
  funext y
  show outsAt0 m c t.val t.isLt y = outArr m c (((cfg0.win 3).blk t).view.emb y)
  have hy := idx2_lt1 y
  have ecol : col (((cfg0.win 3).blk t).view.emb y) = rowOf (t.val / 8) (lane y) := Fin.ext (by
    show win0_3.index t (1 : Fin 2) * 128 + 1 * (y 1).val = (128 * (t.val / 8) + (y 1).val) % 1024
    rw [e1]; omega)
  rw [outs_flush_apply m c t h7 y]
  unfold outArr
  rw [ecol, Gb_tiles]
  refine congrArg (five + ·) (Finset.sum_congr rfl fun s hs => ?_)
  have hs' : s < 8 := Finset.mem_range.mp hs
  have d1 : (8 * (t.val / 8) + s) / 8 = t.val / 8 := by omega
  have d2 : (8 * (t.val / 8) + s) % 8 = s := by omega
  unfold addend
  rw [d1, d2]

/-- Membership in a point's block of the output array, coordinate by coordinate. -/
theorem mem_blk (t : Fin cfg0.N) (i : S1x1024.Idx) :
    i ∈ ((cfg0.win 3).blk t).view.set
      ↔ ∀ a : Fin 2, win0_3.index t a * S1x128.size a ≤ (i a).val ∧ (i a).val < win0_3.index t a * S1x128.size a + S1x128.size a := by
  show i ∈ ((View.whole main_v1).slice (win0_3.rect t)).set ↔ _
  rw [View.set_slice_whole, Rect.mem_set_unit]
  exact Iff.rfl

/-- Every index of the output array lies in the block of the last point of its sample tile. -/
theorem cover (i : S1x1024.Idx) :
    ∃ t : Fin cfg0.N, (cfg0.win 3).flush t = true ∧ i ∈ ((cfg0.win 3).blk t).view.set := by
  have h0 : (i 0).val < 1 := idx2_lt0 i
  have h1 : (i 1).val < 1024 := idx2_lt1 i
  have hN : cfg0.N = 64 := N_0
  obtain ⟨t, htv⟩ : ∃ t : Fin cfg0.N, t.val = 8 * ((i 1).val / 128) + 7 := ⟨⟨8 * ((i 1).val / 128) + 7, by rw [hN]; omega⟩, rfl⟩
  obtain ⟨-, -, -, -, -, -, e0, e1⟩ := idx_facts t
  refine ⟨t, (flush0_3 t).mpr (by omega), ?_⟩
  rw [mem_blk]
  intro a
  match a with
  | ⟨0, _⟩ =>
    show win0_3.index t (0 : Fin 2) * 1 ≤ (i 0).val ∧ (i 0).val < win0_3.index t (0 : Fin 2) * 1 + 1
    rw [e0]; omega
  | ⟨1, _⟩ =>
    show win0_3.index t (1 : Fin 2) * 128 ≤ (i 1).val ∧ (i 1).val < win0_3.index t (1 : Fin 2) * 128 + 128
    rw [e1]; omega

/-- The output array after the run. -/
theorem final (c : Dev nD) : (dats m 0 c).arrAt 3 cfg0.N = outArr m c :=
  (dats m 0 c).arrAt_eq_of_cover 3 (outArr m c) (fun t hf => flushed_eq m c t hf) cover

/-! ## The program's result -/

/-- After the region the output row is viewed as a vector: the layer's result. -/
theorem tail_v2 (c : Dev nD) :
    Pipeline.afterTail₀ cfgs (dats m) 0 (V0 m) [hostOps1] c main_v2 = G (xarr m c) (carr m c) (warr m c) := by
  have e : Pipeline.withArrays spec0 c (V0 m c) (fun w => (dats m 0 c).arrAt w cfg0.N) (Proc.devRef .tc main_v1)
      = outArr m c :=
    (Pipeline.withArrays_arr spec0 launch0.win.arr_inj c (V0 m c) (fun w => (dats m 0 c).arrAt w cfg0.N) 3).trans
      (final m c)
  unfold Pipeline.afterTail₀
  show StableHlo.after hostOps1 _ (Proc.devRef .tc main_v2) = _
  after_results
  funext i
  obtain ⟨b, rfl⟩ : ∃ b : Fin 1024, i = ix1 b := ⟨i 0, eq_ix1 i⟩
  show shapeCast S1024 (Pipeline.withArrays spec0 c (V0 m c) (fun w => (dats m 0 c).arrAt w cfg0.N)
    (Proc.devRef .tc main_v1)) shapeCasts_S1x1024_S1024 (ix1 b) = _
  rw [e]
  exact (shapeCast_1a_a_apply (outArr m c) shapeCasts_S1x1024_S1024 b).trans rfl

/-- The tiled program runs, ends with the layer's result in its result array, and leaves its arguments unchanged. -/
theorem run : θ_run defs (onTc (τ := τ) (main (F := Ideal))) ⟨m, fun _ => 0, ρ⟩ fun r => ∀ c : Dev nD,
      r.2.mem ((c : Thread nD τ).loc main_v2) = G (xarr m c) (carr m c) (warr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨
      ((h c).2 main_v2 (Pipeline.mem_restRefs_of main_v2 (by decide) (by decide))).trans (tail_v2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Accum

end
-- ==== Proof.lean ====
/-
  The certificate of a rule-network layer: a tiled accelerator program against its whole-array reference, over the
  extended reals.

  For a sample `b` (256 truth values) and a conjunction `c` (512 logits, one per literal: the 256 variables and
  their complements) the fit is `min` over the literals of `μ · lit + (1 - μ)`, `μ` the logistic of the logit, and
  the layer's result is `5 + ∑ c, fit b c · w c` (Proof/Spec.lean). Both programs compute it:

  * the reference forms the 512 literals by joining `x` and `1 - x`, takes one minimum over all of them, and one
    sum over all 512 conjunctions, started from zero (Proof/RefValue.lean);
  * the tiled program takes the minimum over each half of the literals and the smaller of the two, and accumulates
    the sum over the conjunctions tile by tile of 64, eight tiles into an output block that starts at `5`
    (Proof/Payload.lean: one tile's partial sums; Proof/Accum.lean: the eight tiles' fold and the output array).

  The two spellings meet by two laws that hold for all extended reals, infinite ones included: the minimum over a
  set is the minimum of the minima over two halves of it, and a finite sum may be regrouped. The logistic function
  is the same function on both sides (the reference spells it `1 / (1 + e^(-x))`), and a product commutes. So the
  precondition (finite inputs) is never opened. The idealization rewrote nothing, so its `preserves` claim is `True`.
  The three frames: the two kernel programs' are the generated frame runs; the reference's is its run with the
  result dropped.
-/
import proofs.«164170_j57303453663343_1_alg».proof.Defs
import proofs.«164170_j57303453663343_1_alg».proof.Proof.Gen.Kernel
import proofs.«164170_j57303453663343_1_alg».proof.Proof.Gen.Kernel.Skeleton
import proofs.«164170_j57303453663343_1_alg».proof.Proof.Gen.Kernel.Launch
import proofs.«164170_j57303453663343_1_alg».proof.Proof.Gen.Kernel.Points
import proofs.«164170_j57303453663343_1_alg».proof.Proof.Gen.Kernel.Frame
import proofs.«164170_j57303453663343_1_alg».proof.Proof.Gen.KernelIdeal
import proofs.«164170_j57303453663343_1_alg».proof.Proof.Gen.KernelIdeal.Skeleton
import proofs.«164170_j57303453663343_1_alg».proof.Proof.Gen.KernelIdeal.Launch
import proofs.«164170_j57303453663343_1_alg».proof.Proof.Gen.KernelIdeal.Points
import proofs.«164170_j57303453663343_1_alg».proof.Proof.Gen.KernelIdeal.Frame
import proofs.«164170_j57303453663343_1_alg».proof.Proof.Gen.ReferenceIdeal
import proofs.«164170_j57303453663343_1_alg».proof.Proof.Gen.Pre_finite_inputs
import proofs.«164170_j57303453663343_1_alg».proof.Proof.RefRun
import proofs.«164170_j57303453663343_1_alg».proof.Proof.RefRead
import proofs.«164170_j57303453663343_1_alg».proof.Proof.RefValue
import proofs.«164170_j57303453663343_1_alg».proof.Proof.Accum
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.PRun.run (F := Ideal) m ρ)

/-- Both programs end with the layer's result of arguments that agree. -/
theorem algebraic : Cert.algebraic_KernelIdeal_ReferenceIdeal := by
  intro m ρ m' ρ' _ hagree
  refine ⟨_, Cert.KernelIdeal.Accum.run m ρ, ?_⟩
  refine (θ_run Cert.ReferenceIdeal.defs _ _).mono (fun _ h c => ⟨(h c).1.trans ?_, (h c).2⟩)
    (Cert.ReferenceIdeal.PRun.run (F := Ideal) m' ρ')
  rw [Cert.ReferenceIdeal.PRead.val_main_v25_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
